-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024 .f32) (main_arg11 : FVec F S1024 .f32) (main_arg12 : FVec F S1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S256x1024 : Shape := ⟨2, ![256, 1024]⟩
abbrev S256x3072 : Shape := ⟨2, ![256, 3072]⟩

abbrev nBuf : Space → Nat
  | .hbm => 24
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3072, .f32⟩
  | .hbm, ⟨15, _⟩ => ⟨S1024x3072, .bf16⟩
  | .hbm, ⟨16, _⟩ => ⟨S1024x3072, .f32⟩
  | .hbm, ⟨17, _⟩ => ⟨S1024x3072, .bf16⟩
  | .hbm, ⟨18, _⟩ => ⟨S3072, .f32⟩
  | .hbm, ⟨19, _⟩ => ⟨S1x3072, .f32⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x3072, .bf16⟩
  | .local _ .vmem, ⟨6, _⟩ => ⟨S1024x1024, .bf16⟩
  | .local _ .vmem, ⟨7, _⟩ => ⟨S1024x1024, .bf16⟩
  | .local _ .vmem, ⟨8, _⟩ => ⟨S1x3072, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S16384x3072 : Shape := ⟨2, ![16384, 3072]⟩
abbrev S1x3072 : Shape := ⟨2, ![1, 3072]⟩
abbrev S1x1024 : Shape := ⟨2, ![1, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x3072, .f32⟩
  | .hbm, ⟨15, _⟩ => ⟨S1024x3072, .f32⟩
  | .hbm, ⟨16, _⟩ => ⟨S3072, .f32⟩
  | .hbm, ⟨17, _⟩ => ⟨S16384x3072, .f32⟩
  | .hbm, ⟨18, _⟩ => ⟨S16384x3072, .f32⟩
  | .hbm, ⟨19, _⟩ => ⟨S16384x3072, .f32⟩
  | .hbm, ⟨20, _⟩ => ⟨S1x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelFrame.lean ====
/-
  The frame of `Kernel`, at any float instance: the program runs to the end, faults nowhere, and leaves its fourteen
  argument arrays as they were; and what the result array holds afterwards, block by block.

  @main first joins the three gate weights of each kind (and the three gate biases) into one array, narrows the
  joined and the candidate weights, and gives the two bias vectors a leading unit axis; none of these lines writes an
  argument array, so the one region finds every argument as launched. The region has 64 points. At point `t` the
  body is handed rows `[256 t, 256 t + 256)` of `X` and of `S` and, whole, the two joined weight arrays, the two
  candidate weights and the two bias rows; it loads all eight, computes one `256 × 1024` value from them (the named
  payload), and stores it over the whole output block, which the pipeline writes back to rows `[256 t, 256 t + 256)`
  of the result. The body keeps nothing between points and uses nothing of its own.
-/
import proofs.«169676_j51419348467841_1_alg».proof.Proof.Gen.Kernel.Launch
import proofs.«169676_j51419348467841_1_alg».proof.Proof.Gen.Kernel.Skeleton
import proofs.«169676_j51419348467841_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the nine host lines. -/
abbrev V (c : Dev nD) (b : Ref sig .tc) : Buf (Elt F) ((c : Thread nD τ).loc b) :=
  StableHlo.after hostOps0 (fun b => m (c, b)) b

/-- None of the nine lines allocates. -/
theorem hostOps0_fresh : (hostOps0 : List (HloOp τ sig (Elt F))).Forall fun op => op.fresh = ∅ := by
  simp only [List.Forall]; repeat' constructor

/-- @main is the nine host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or not
    (an unfetched window's block index has not moved), for any proof data whose array is the region-entry one and
    whose body leaves the block in place. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state that satisfies the library's frame post has the fourteen arguments as launched: `X` and `S` are
    staged inputs, so they end as the region found them; the other twelve bypass the region; and the region found all
    fourteen as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of m dats hA r h c) h

/-! ## The body's accesses -/

abbrev rRows : Rect S256x1024 := Rect.unit (s := S256x1024) ![0, 0] S256x1024.size inb_S256x1024_S256x1024_0_0
abbrev rJoined : Rect S1024x3072 := Rect.unit (s := S1024x3072) ![0, 0] S1024x3072.size inb_S1024x3072_S1024x3072_0_0
abbrev rSquare : Rect S1024x1024 := Rect.unit (s := S1024x1024) ![0, 0] S1024x1024.size inb_S1024x1024_S1024x1024_0_0
abbrev rJoinedBias : Rect S1x3072 := Rect.unit (s := S1x3072) ![0, 0] S1x3072.size inb_S1x3072_S1x3072_0_0
abbrev rBias : Rect S1x1024 := Rect.unit (s := S1x1024) ![0, 0] S1x1024.size inb_S1x1024_S1x1024_0_0

/-! ## What the body leaves in the output window's buffer -/

/-- The output block after the body, from the eight input blocks: one store over the whole block. -/
def outBlock (x0 x1 : Vec F S256x1024 .f32) (x2 x3 : Vec F S1024x3072 .bf16) (x4 x5 : Vec F S1024x1024 .bf16) (x6 : Vec F S1x3072 .f32) (x7 : Vec F S1x1024 .f32) : Vec F S256x1024 .f32 :=
  View.canon [⟨rRows, k0_pay1 (View.ld x0 rRows) (View.ld x1 rRows) (View.ld x2 rJoined) (View.ld x3 rJoined) (View.ld x6 rJoinedBias) (View.ld x4 rSquare) (View.ld x5 rSquare) (View.ld x7 rBias)⟩]

/-- The one store covers the block. -/
theorem cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs, the inputs' at contents `x0 … x7` and the output's at anything, runs to a state
    holding the inputs' as they were and the output's at `outBlock` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x3072 .f32) (harg7 : arg7.IsWhole) (arg8 : Memref sig .tc .vmem S1x1024 .f32) (harg8 : arg8.IsWhole) (arg9 : Memref sig .tc .vmem S256x1024 .f32) (harg9 : arg9.IsWhole)
    (x0 x1 : Vec F S256x1024 .f32) (x2 x3 : Vec F S1024x3072 .bf16) (x4 x5 : Vec F S1024x1024 .bf16) (x6 : Vec F S1x3072 .f32) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover _)

/-! ## The pipeline's proof data -/

/-- The proof data on core `c`: the arrays as the region finds them; after the body at point `t` each input's buffer
    still at its block and the output's at `outBlock` of the eight input blocks; the scoped rest and the generator
    register pass through untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data says, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Hand

end
-- ==== Proof.KernelIdealFrame.lean ====
/-
  The frame of `KernelIdeal`, at any float instance: the program runs to the end, faults nowhere, and leaves its fourteen
  argument arrays as they were; and what the result array holds afterwards, block by block.

  @main first joins the three gate weights of each kind (and the three gate biases) into one array, narrows the
  joined and the candidate weights, and gives the two bias vectors a leading unit axis; none of these lines writes an
  argument array, so the one region finds every argument as launched. The region has 64 points. At point `t` the
  body is handed rows `[256 t, 256 t + 256)` of `X` and of `S` and, whole, the two joined weight arrays, the two
  candidate weights and the two bias rows; it loads all eight, computes one `256 × 1024` value from them (the named
  payload), and stores it over the whole output block, which the pipeline writes back to rows `[256 t, 256 t + 256)`
  of the result. The body keeps nothing between points and uses nothing of its own.
-/
import proofs.«169676_j51419348467841_1_alg».proof.Proof.Gen.KernelIdeal.Launch
import proofs.«169676_j51419348467841_1_alg».proof.Proof.Gen.KernelIdeal.Skeleton
import proofs.«169676_j51419348467841_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the nine host lines. -/
abbrev V (c : Dev nD) (b : Ref sig .tc) : Buf (Elt F) ((c : Thread nD τ).loc b) :=
  StableHlo.after hostOps0 (fun b => m (c, b)) b

/-- None of the nine lines allocates. -/
theorem hostOps0_fresh : (hostOps0 : List (HloOp τ sig (Elt F))).Forall fun op => op.fresh = ∅ := by
  simp only [List.Forall]; repeat' constructor

/-- @main is the nine host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetches it or not
    (an unfetched window's block index has not moved), for any proof data whose array is the region-entry one and
    whose body leaves the block in place. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state that satisfies the library's frame post has the fourteen arguments as launched: `X` and `S` are
    staged inputs, so they end as the region found them; the other twelve bypass the region; and the region found all
    fourteen as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to the library's frame post is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of m dats hA r h c) h

/-! ## The body's accesses -/

abbrev rRows : Rect S256x1024 := Rect.unit (s := S256x1024) ![0, 0] S256x1024.size inb_S256x1024_S256x1024_0_0
abbrev rJoined : Rect S1024x3072 := Rect.unit (s := S1024x3072) ![0, 0] S1024x3072.size inb_S1024x3072_S1024x3072_0_0
abbrev rSquare : Rect S1024x1024 := Rect.unit (s := S1024x1024) ![0, 0] S1024x1024.size inb_S1024x1024_S1024x1024_0_0
abbrev rJoinedBias : Rect S1x3072 := Rect.unit (s := S1x3072) ![0, 0] S1x3072.size inb_S1x3072_S1x3072_0_0
abbrev rBias : Rect S1x1024 := Rect.unit (s := S1x1024) ![0, 0] S1x1024.size inb_S1x1024_S1x1024_0_0

/-! ## What the body leaves in the output window's buffer -/

/-- The output block after the body, from the eight input blocks: one store over the whole block. -/
def outBlock (x0 x1 : Vec F S256x1024 .f32) (x2 x3 : Vec F S1024x3072 .bf16) (x4 x5 : Vec F S1024x1024 .bf16) (x6 : Vec F S1x3072 .f32) (x7 : Vec F S1x1024 .f32) : Vec F S256x1024 .f32 :=
  View.canon [⟨rRows, k0_pay1 (View.ld x0 rRows) (View.ld x1 rRows) (View.ld x2 rJoined) (View.ld x3 rJoined) (View.ld x6 rJoinedBias) (View.ld x4 rSquare) (View.ld x5 rSquare) (View.ld x7 rBias)⟩]

/-- The one store covers the block. -/
theorem cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs, the inputs' at contents `x0 … x7` and the output's at anything, runs to a state
    holding the inputs' as they were and the output's at `outBlock` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x3072 .f32) (harg7 : arg7.IsWhole) (arg8 : Memref sig .tc .vmem S1x1024 .f32) (harg8 : arg8.IsWhole) (arg9 : Memref sig .tc .vmem S256x1024 .f32) (harg9 : arg9.IsWhole)
    (x0 x1 : Vec F S256x1024 .f32) (x2 x3 : Vec F S1024x3072 .bf16) (x4 x5 : Vec F S1024x1024 .bf16) (x6 : Vec F S1x3072 .f32) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover _)

/-! ## The pipeline's proof data -/

/-- The proof data on core `c`: the arrays as the region finds them; after the body at point `t` each input's buffer
    still at its block and the output's at `outBlock` of the eight input blocks; the scoped rest and the generator
    register pass through untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline
    ends at what the proof data says, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.Spec.lean ====
/-
  The cell, one row at a time, over the extended reals.

  Row `n` of the new state depends on row `n` of `X` and of `S` only, so the cell is stated for ONE row: `x` and `s`
  are that row of `X` and of `S`, as functions of the column. With `Uc = [Uz | Ug | Ur]`, `Wc = [Wz | Wg | Wr]` joined
  along the columns and `bc = [bz, bg, br]` joined end to end, the three gates are the column ranges `[0, 1024)`,
  `[1024, 2048)`, `[2048, 3072)` of

      gates(j) = tanh ((∑ₖ x(k) · Uc(k, j) + ∑ₖ s(k) · Wc(k, j)) + bc(j)),

  the candidate state is

      cand(j) = tanh ((∑ₖ x(k) · Uh(k, j) + ∑ₖ (s(k) · gates(2048 + k)) · Wh(k, j)) + bh(j)),

  and the new state is `(1 − gates(1024 + j)) · cand(j) + gates(j) · s(j)`.

  The joined arrays are parameters: both programs join the same three arrays by the same operation, so nothing here
  needs to know how a joined array's element is chosen. The biases are functions of the column, so that a bias held
  as a vector and one held as a one-row matrix both fit.
-/
import Idealize.ShloMosaic.PureOps.Ideal
import Idealize.ShloMosaic.Lib.ValueIdx

noncomputable section

namespace Cert.Gru

open Idealize.ShloMosaic Idealize.ShloMosaic.ValueIdx

abbrev Rows : Shape := ⟨2, ![16384, 1024]⟩
abbrev Joined : Shape := ⟨2, ![1024, 3072]⟩
abbrev Square : Shape := ⟨2, ![1024, 1024]⟩

/-- Column `j` of the update gate's range, inside the joined width. -/
abbrev colZ (j : Fin 1024) : Fin 3072 := ⟨j.val, by omega⟩
/-- Column `j` of the second gate's range. -/
abbrev colG (j : Fin 1024) : Fin 3072 := ⟨1024 + j.val, by omega⟩
/-- Column `j` of the reset gate's range. -/
abbrev colR (j : Fin 1024) : Fin 3072 := ⟨2048 + j.val, by omega⟩

section
variable (x s : Fin 1024 → EReal) (Uc Wc : Joined.Idx → EReal) (bc : Fin 3072 → EReal)
  (Uh Wh : Square.Idx → EReal) (bh : Fin 1024 → EReal)

/-- The three fused gates of one row, before they are cut into column ranges. -/
def gates (j : Fin 3072) : EReal :=
  Ideal.tanh (((∑ k : Fin 1024, x k * Uc (ix2 k j)) + ∑ k : Fin 1024, s k * Wc (ix2 k j)) + bc j)

/-- The candidate state of one row: the state is scaled by the reset gate before it meets `Wh`. -/
def cand (j : Fin 1024) : EReal :=
  Ideal.tanh (((∑ k : Fin 1024, x k * Uh (ix2 k j)) + ∑ k : Fin 1024, (s k * gates x s Uc Wc bc (colR k)) * Wh (ix2 k j)) + bh j)

/-- The new state of one row, at column `j`. -/
def cell (j : Fin 1024) : EReal :=
  (Ideal.ofBits .f32 0x3F800000#32 - gates x s Uc Wc bc (colG j)) * cand x s Uc Wc bc Uh Wh bh j
    + gates x s Uc Wc bc (colZ j) * s j

end

/-- The new state as an array: row `n` is the cell of rows `n` of `X` and `S`. -/
def newState (X S : Rows.Idx → EReal) (Uc Wc : Joined.Idx → EReal) (bc : Fin 3072 → EReal)
    (Uh Wh : Square.Idx → EReal) (bh : Fin 1024 → EReal) : Rows.Idx → EReal := fun i =>
  cell (fun k => X (ix2 (i 0) k)) (fun k => S (ix2 (i 0) k)) Uc Wc bc Uh Wh bh (i 1)

theorem newState_ix2 (X S : Rows.Idx → EReal) (Uc Wc : Joined.Idx → EReal) (bc : Fin 3072 → EReal)
    (Uh Wh : Square.Idx → EReal) (bh : Fin 1024 → EReal) (n : Fin 16384) (j : Fin 1024) :
    newState X S Uc Wc bc Uh Wh bh (ix2 n j)
      = cell (fun k => X (ix2 n k)) (fun k => S (ix2 n k)) Uc Wc bc Uh Wh bh j := rfl

end Cert.Gru

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelIdealPayload.lean ====
/-
  The kernel body's one stored value, read at an element, is the specification's cell of that row.

  The body holds a block of 256 rows of X and of S and, whole, the joined weights Uc and Wc, the candidate weights
  Uh and Wh, and the two bias rows. At the extended reals a narrowing of the format is the identity and a cast to the
  same shape is the identity, so the body's arithmetic reads, at row p and column j of the joined width,

      G(p, j) = tanh ((∑ₖ X(p, k) · Uc(k, j) + ∑ₖ S(p, k) · Wc(k, j)) + bc(0, j)),

  which is the specification's gates of row p. The three gates are the column ranges of G at offsets 0, 1024 and 2048;
  the candidate is

      C(p, q) = tanh ((∑ₖ X(p, k) · Uh(k, q) + ∑ₖ (S(p, k) · G(p, 2048 + k)) · Wh(k, q)) + bh(0, q)),

  and the stored value at (p, q) is (1 − G(p, 1024 + q)) · C(p, q) + G(p, q) · S(p, q): the cell.
-/
import proofs.«169676_j51419348467841_1_alg».proof.Proof.Gen.KernelIdeal.Skeleton
import proofs.«169676_j51419348467841_1_alg».proof.Proof.Spec
import proofs.«169676_j51419348467841_1_alg».proof.Proof.LibRowwise
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The layout operations the body uses, read at an element -/

/-- A one-row matrix broadcast along the rows reads, at (p, q), the row at (0, q). -/
theorem rowBroadcast_apply {A B : Nat} {α : Type} (v : (⟨2, ![1, B]⟩ : Shape).Idx → α)
    (h : (⟨2, ![1, B]⟩ : Shape).Broadcasts ⟨2, ![A, B]⟩) (hB : B ≠ 1) (p : Fin A) (q : Fin B) :
    broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

/-- A range of 1024 columns starting at column o, read at (p, q), is the operand at (p, o + q). -/
theorem columnRange_apply {α : Type} (o : Nat) (x : S256x3072.Idx → α) (h : S256x3072.Slices ![0, o] S256x1024)
    (p : Fin 256) (q : Fin 1024) (c : Fin 3072) (hc : c.val = o + q.val) :
    extractStridedSlice S256x1024 ![0, o] x h (ix2 p q) = x (ix2 p c) := by
  refine extractStridedSlice_apply ![0, o] x h (ix2 p q) (ix2 p c) fun a => ?_
  match a with
  | ⟨0, _⟩ => exact (Nat.zero_add p.val).symm
  | ⟨1, _⟩ => exact hc

/-! ## The two matrix products, into zero -/

/-- The product with a joined weight array, at (p, j): the sum over the 1024 contracted columns. -/
theorem joined_product (a : FVec Ideal S256x1024 .bf16) (b : FVec Ideal S1024x3072 .bf16) (p : Fin 256) (j : Fin 3072) :
    FloatOps.matmul dot_S256x1024_S1024x3072_S256x3072_1_0_0_1_n_n none a b (constant (F := Ideal) S256x3072 .f32 0x00000000#32) (ix2 p j)
      = ∑ k : Fin 1024, a (ix2 p k) * b (ix2 k j) := by
  have e := Cert.Lib.Rowwise.eq_plain dot_S256x1024_S1024x3072_S256x3072_1_0_0_1_n_n rfl rfl rfl rfl rfl rfl
  rw [e]
  exact Cert.Lib.Rowwise.plain_matmul_zero_apply none a b p j

/-- The product with a candidate weight array, at (p, q). -/
theorem square_product (a : FVec Ideal S256x1024 .bf16) (b : FVec Ideal S1024x1024 .bf16) (p : Fin 256) (q : Fin 1024) :
    FloatOps.matmul dot_S256x1024_S1024x1024_S256x1024_1_0_0_1_n_n none a b (constant (F := Ideal) S256x1024 .f32 0x00000000#32) (ix2 p q)
      = ∑ k : Fin 1024, a (ix2 p k) * b (ix2 k q) := by
  have e := Cert.Lib.Rowwise.eq_plain dot_S256x1024_S1024x1024_S256x1024_1_0_0_1_n_n rfl rfl rfl rfl rfl rfl
  rw [e]
  exact Cert.Lib.Rowwise.plain_matmul_zero_apply none a b p q

/-! ## The fused gates of the block -/

/-- The body's gate vector: tanh of the two joined products plus the joined bias row, before it is cut in three. -/
def gatesVec (v0 v1 : FVec Ideal S256x1024 .f32) (v4 v6 : FVec Ideal S1024x3072 .bf16) (v11 : FVec Ideal S1x3072 .f32) :
    FVec Ideal S256x3072 .f32 :=
  tanh (addf
    (addf
      (matmul dot_S256x1024_S1024x3072_S256x3072_1_0_0_1_n_n none (truncf .bf16 v0 bitsLt_bf16_f32)
        (shapeCast S1024x3072 v4 shapeCasts_S1024x3072_S1024x3072) (constant S256x3072 .f32 0x00000000#32))
      (matmul dot_S256x1024_S1024x3072_S256x3072_1_0_0_1_n_n none (truncf .bf16 v1 bitsLt_bf16_f32)
        (shapeCast S1024x3072 v6 shapeCasts_S1024x3072_S1024x3072) (constant S256x3072 .f32 0x00000000#32)))
    (broadcastTo S256x3072 (shapeCast S1x3072 v11 shapeCasts_S1x3072_S1x3072) broadcasts_S1x3072_S256x3072))

/-- Row p of the gate vector is the specification's gates of row p of X and of S. -/
theorem gatesVec_apply (v0 v1 : FVec Ideal S256x1024 .f32) (v4 v6 : FVec Ideal S1024x3072 .bf16) (v11 : FVec Ideal S1x3072 .f32)
    (p : Fin 256) (j : Fin 3072) :
    gatesVec v0 v1 v4 v6 v11 (ix2 p j)
      = Cert.Gru.gates (fun k => v0 (ix2 p k)) (fun k => v1 (ix2 p k)) v4 v6 (fun j => v11 (ix2 0 j)) j := by
  unfold gatesVec Cert.Gru.gates
  show Ideal.tanh
      ((FloatOps.matmul dot_S256x1024_S1024x3072_S256x3072_1_0_0_1_n_n none (truncf .bf16 v0 bitsLt_bf16_f32)
            (shapeCast S1024x3072 v4 shapeCasts_S1024x3072_S1024x3072) (constant (F := Ideal) S256x3072 .f32 0x00000000#32) (ix2 p j)
          + FloatOps.matmul dot_S256x1024_S1024x3072_S256x3072_1_0_0_1_n_n none (truncf .bf16 v1 bitsLt_bf16_f32)
            (shapeCast S1024x3072 v6 shapeCasts_S1024x3072_S1024x3072) (constant (F := Ideal) S256x3072 .f32 0x00000000#32) (ix2 p j))
        + broadcastTo S256x3072 (shapeCast S1x3072 v11 shapeCasts_S1x3072_S1x3072) broadcasts_S1x3072_S256x3072 (ix2 p j)) = _
  -- the two products are plain sums, the casts to the same shape are the identity, and the bias row is read at (0, j)
  rw [joined_product, joined_product, shapeCast_self, shapeCast_self, shapeCast_self,
    rowBroadcast_apply v11 broadcasts_S1x3072_S256x3072 (by decide) p j]
  -- what is left differs only by the narrowing of X and of S, which is the identity on extended reals
  rfl

/-! ## The candidate state of the block -/

/-- The body's candidate vector, over the reset gate r it scales the state by. -/
def candVec (v0 v1 : FVec Ideal S256x1024 .f32) (v21 v23 : FVec Ideal S1024x1024 .bf16) (v28 : FVec Ideal S1x1024 .f32)
    (r : FVec Ideal S256x1024 .f32) : FVec Ideal S256x1024 .f32 :=
  tanh (addf
    (addf
      (matmul dot_S256x1024_S1024x1024_S256x1024_1_0_0_1_n_n none (truncf .bf16 v0 bitsLt_bf16_f32)
        (shapeCast S1024x1024 v21 shapeCasts_S1024x1024_S1024x1024) (constant S256x1024 .f32 0x00000000#32))
      (matmul dot_S256x1024_S1024x1024_S256x1024_1_0_0_1_n_n none (truncf .bf16 (mulf v1 r) bitsLt_bf16_f32)
        (shapeCast S1024x1024 v23 shapeCasts_S1024x1024_S1024x1024) (constant S256x1024 .f32 0x00000000#32)))
    (broadcastTo S256x1024 (shapeCast S1x1024 v28 shapeCasts_S1x1024_S1x1024) broadcasts_S1x1024_S256x1024))

/-- The candidate at (p, q), when row p of the reset gate is g. -/
theorem candVec_apply (v0 v1 : FVec Ideal S256x1024 .f32) (v21 v23 : FVec Ideal S1024x1024 .bf16) (v28 : FVec Ideal S1x1024 .f32)
    (r : FVec Ideal S256x1024 .f32) (p : Fin 256) (q : Fin 1024) (g : Fin 1024 → EReal) (hr : ∀ k : Fin 1024, r (ix2 p k) = g k) :
    candVec v0 v1 v21 v23 v28 r (ix2 p q)
      = Ideal.tanh (((∑ k : Fin 1024, v0 (ix2 p k) * v21 (ix2 k q)) + ∑ k : Fin 1024, (v1 (ix2 p k) * g k) * v23 (ix2 k q))
          + v28 (ix2 0 q)) := by
  unfold candVec
  show Ideal.tanh
      ((FloatOps.matmul dot_S256x1024_S1024x1024_S256x1024_1_0_0_1_n_n none (truncf .bf16 v0 bitsLt_bf16_f32)
            (shapeCast S1024x1024 v21 shapeCasts_S1024x1024_S1024x1024) (constant (F := Ideal) S256x1024 .f32 0x00000000#32) (ix2 p q)
          + FloatOps.matmul dot_S256x1024_S1024x1024_S256x1024_1_0_0_1_n_n none (truncf .bf16 (mulf v1 r) bitsLt_bf16_f32)
            (shapeCast S1024x1024 v23 shapeCasts_S1024x1024_S1024x1024) (constant (F := Ideal) S256x1024 .f32 0x00000000#32) (ix2 p q))
        + broadcastTo S256x1024 (shapeCast S1x1024 v28 shapeCasts_S1x1024_S1x1024) broadcasts_S1x1024_S256x1024 (ix2 p q)) = _
  rw [square_product, square_product, shapeCast_self, shapeCast_self, shapeCast_self,
    rowBroadcast_apply v28 broadcasts_S1x1024_S256x1024 (by decide) p q]
  -- under the second sum the left operand at (p, k) is S(p, k) · r(p, k), and r(p, k) = g(k)
  have hsum : (∑ k : Fin 1024, (truncf .bf16 (mulf v1 r) bitsLt_bf16_f32 : FVec Ideal S256x1024 .bf16) (ix2 p k) * v23 (ix2 k q))
      = ∑ k : Fin 1024, (v1 (ix2 p k) * g k) * v23 (ix2 k q) :=
    Finset.sum_congr rfl fun k _ => by
      show (v1 (ix2 p k) * r (ix2 p k)) * v23 (ix2 k q) = _
      rw [hr k]
  rw [hsum]
  rfl

/-! ## The stored value -/

/-- The body's stored value at (p, q) is the cell of row p at column q. -/
theorem pay_apply (v0 v1 : Vec Ideal S256x1024 .f32) (v4 v6 : Vec Ideal S1024x3072 .bf16) (v11 : Vec Ideal S1x3072 .f32)
    (v21 v23 : Vec Ideal S1024x1024 .bf16) (v28 : Vec Ideal S1x1024 .f32) (p : Fin 256) (q : Fin 1024) :
    k0_pay1 (F := Ideal) v0 v1 v4 v6 v11 v21 v23 v28 (ix2 p q)
      = Cert.Gru.cell (fun k => v0 (ix2 p k)) (fun k => v1 (ix2 p k)) v4 v6 (fun j => v11 (ix2 0 j)) v21 v23 (fun j => v28 (ix2 0 j)) q := by
  have hG := gatesVec_apply v0 v1 v4 v6 v11 p
  -- the value is (1 − g) · candidate + z · S, with z, g and the reset gate the three column ranges of the gate vector
  have hpay : k0_pay1 (F := Ideal) v0 v1 v4 v6 v11 v21 v23 v28 (ix2 p q)
      = ((Scalar.ofBits .f32 0x3F800000#32 : Ideal .f32)
            - extractStridedSlice S256x1024 ![0, 1024] (gatesVec v0 v1 v4 v6 v11) slices_S256x3072_o0_1024_S256x1024 (ix2 p q))
          * candVec v0 v1 v21 v23 v28
              (extractStridedSlice S256x1024 ![0, 2048] (gatesVec v0 v1 v4 v6 v11) slices_S256x3072_o0_2048_S256x1024) (ix2 p q)
        + extractStridedSlice S256x1024 ![0, 0] (gatesVec v0 v1 v4 v6 v11) slices_S256x3072_o0_0_S256x1024 (ix2 p q) * v1 (ix2 p q) := rfl
  rw [hpay,
    columnRange_apply 1024 (gatesVec v0 v1 v4 v6 v11) slices_S256x3072_o0_1024_S256x1024 p q (Cert.Gru.colG q) rfl,
    columnRange_apply 0 (gatesVec v0 v1 v4 v6 v11) slices_S256x3072_o0_0_S256x1024 p q (Cert.Gru.colZ q) (Nat.zero_add _).symm,
    candVec_apply v0 v1 v21 v23 v28 _ p q
      (fun k => Cert.Gru.gates (fun k => v0 (ix2 p k)) (fun k => v1 (ix2 p k)) v4 v6 (fun j => v11 (ix2 0 j)) (Cert.Gru.colR k))
      (fun k => (columnRange_apply 2048 (gatesVec v0 v1 v4 v6 v11) slices_S256x3072_o0_2048_S256x1024 p k (Cert.Gru.colR k) rfl).trans
        (hG (Cert.Gru.colR k))),
    hG, hG]
  rfl

end Cert.KernelIdeal.Payload

end
-- ==== Proof.KernelIdealValue.lean ====
/-
  What the idealized kernel leaves in its result array: the new state, as one function of the fourteen arguments.

  The region finds in its windows: rows of `X` and `S` (arguments, untouched by the host lines); the two joined gate
  weights (each the three arguments joined along the columns, then narrowed, which changes nothing over the extended
  reals); the two candidate weights (narrowed arguments); and the two biases as one-row matrices (the joined gate biases,
  resp. `bh`, with a leading unit axis). Every window but the two row windows is its whole array at every point; the row
  windows and the output move 256 rows per point. So the body's stored value at `(p, q)` of point `t`, which is the cell
  of row `p` of its blocks, is the cell of row `256 t + p` of `X` and `S`: block `t` of the new state. The 64 blocks
  tile the result array, so it ends holding the new state.
-/
import proofs.«169676_j51419348467841_1_alg».proof.Proof.KernelIdealFrame
import proofs.«169676_j51419348467841_1_alg».proof.Proof.KernelIdealPayload
import proofs.«169676_j51419348467841_1_alg».proof.Proof.Spec
import Idealize.ShloMosaic.Lib.Pipeline.Value
import Idealize.ShloMosaic.Lib.StableHlo.Run
import Idealize.ShloMosaic.Lib.ValueIdx

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three gate weights of `X`, joined along the columns. -/
abbrev joinedU (c : Dev nD) : S1024x3072.Idx → EReal :=
  concatenate S1024x3072 1 [⟨S1024x1024, m ((c : Thread nD τ).loc main_arg2)⟩, ⟨S1024x1024, m ((c : Thread nD τ).loc main_arg3)⟩, ⟨S1024x1024, m ((c : Thread nD τ).loc main_arg4)⟩] concatenates_S1024x1024_S1024x1024_S1024x1024_S1024x3072_d1
abbrev joinedW (c : Dev nD) : S1024x3072.Idx → EReal :=
  concatenate S1024x3072 1 [⟨S1024x1024, m ((c : Thread nD τ).loc main_arg6)⟩, ⟨S1024x1024, m ((c : Thread nD τ).loc main_arg7)⟩, ⟨S1024x1024, m ((c : Thread nD τ).loc main_arg8)⟩] concatenates_S1024x1024_S1024x1024_S1024x1024_S1024x3072_d1
abbrev joinedB (c : Dev nD) : S3072.Idx → EReal :=
  concatenate S3072 0 [⟨S1024, m ((c : Thread nD τ).loc main_arg10)⟩, ⟨S1024, m ((c : Thread nD τ).loc main_arg11)⟩, ⟨S1024, m ((c : Thread nD τ).loc main_arg12)⟩] concatenates_S1024_S1024_S1024_S3072_d0

theorem V_v1 (c : Dev nD) : (V m c main_v1 : S1024x3072.Idx → EReal) = joinedU m c := by
  dsimp only [V, hostOps0]; after_results; rfl
theorem V_v3 (c : Dev nD) : (V m c main_v3 : S1024x3072.Idx → EReal) = joinedW m c := by
  dsimp only [V, hostOps0]; after_results; rfl
theorem V_v6 (c : Dev nD) : (V m c main_v6 : S1024x1024.Idx → EReal) = m ((c : Thread nD τ).loc main_arg5) := by
  dsimp only [V, hostOps0]; after_results; rfl
theorem V_v7 (c : Dev nD) : (V m c main_v7 : S1024x1024.Idx → EReal) = m ((c : Thread nD τ).loc main_arg9) := by
  dsimp only [V, hostOps0]; after_results; rfl
theorem V_v5 (c : Dev nD) : (V m c main_v5 : S1x3072.Idx → EReal) = shapeCast S1x3072 (joinedB m c) shapeCasts_S3072_S1x3072 := by
  dsimp only [V, hostOps0]; after_results; rfl
theorem V_v8 (c : Dev nD) : (V m c main_v8 : S1x1024.Idx → EReal) = shapeCast S1x1024 (m ((c : Thread nD τ).loc main_arg13) : S1024.Idx → EReal) shapeCasts_S1024_S1x1024 := by
  dsimp only [V, hostOps0]; after_results; rfl

/-- A vector cast to a one-row matrix reads, at `(u, q)`, the vector at `q`. -/
theorem row_apply {B : Nat} {α : Type} (v : (⟨1, ![B]⟩ : Shape).Idx → α) (h : (⟨1, ![B]⟩ : Shape).ShapeCasts ⟨2, ![1, B]⟩) (u : Fin 1) (q : Fin B) :
    shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu, Nat.zero_mul, Nat.zero_add]

/-- The new state as one function of the argument arrays. -/
abbrev result (c : Dev nD) : S16384x1024.Idx → EReal :=
  Cert.Gru.newState (m ((c : Thread nD τ).loc main_arg0)) (m ((c : Thread nD τ).loc main_arg1)) (joinedU m c) (joinedW m c)
    (fun j => joinedB m c (ix1 j)) (m ((c : Thread nD τ).loc main_arg5)) (m ((c : Thread nD τ).loc main_arg9))
    (fun j => (m ((c : Thread nD τ).loc main_arg13) : S1024.Idx → EReal) (ix1 j))

/-- The printed index maps over the grid: the row windows and the output move one block of 256 rows per point; the other
    six windows stay at block (0, 0). -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem t_lt (t : Fin cfg0.N) : t.val < 64 := by have := t.isLt; have hN : cfg0.N = 64 := N_0; omega

/-- Row `p` of the `X` block at point `t` is row `256 t + p` of `X`. -/
theorem rows_X (c : Dev nD) (t : Fin cfg0.N) (p : Fin 256) (k : Fin 1024) :
    (iblk m c 0 t : S256x1024.Idx → EReal) (ix2 p k)
      = (m ((c : Thread nD τ).loc main_arg0) : S16384x1024.Idx → EReal) (ix2 ⟨256 * t.val + p.val, by have := t_lt t; omega⟩ k) := by
  obtain ⟨⟨e0, e1⟩, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

/-- Row `p` of the `S` block at point `t` is row `256 t + p` of `S`. -/
theorem rows_S (c : Dev nD) (t : Fin cfg0.N) (p : Fin 256) (k : Fin 1024) :
    (iblk m c 1 t : S256x1024.Idx → EReal) (ix2 p k)
      = (m ((c : Thread nD τ).loc main_arg1) : S16384x1024.Idx → EReal) (ix2 ⟨256 * t.val + p.val, by have := t_lt t; omega⟩ k) := by
  obtain ⟨-, ⟨e0, e1⟩, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

/-- Window 2's block at every point is its whole array. -/
theorem whole_2 (c : Dev nD) (t : Fin cfg0.N) : (iblk m c 2 t : S1024x3072.Idx → EReal) = joinedU m c := by
  obtain ⟨-, -, -, ⟨e0, e1⟩, -, -, -, -, -⟩ := idx_facts t
  funext y
  unfold iblk
  rw [View.read_apply]
  show V m c main_v1 _ = _
  rw [V_v1]
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 3072 + 1 * (y 1).val = (y 1).val; rw [e1]; omega

/-- Window 3's block at every point is its whole array. -/
theorem whole_3 (c : Dev nD) (t : Fin cfg0.N) : (iblk m c 3 t : S1024x3072.Idx → EReal) = joinedW m c := by
  obtain ⟨-, -, -, -, ⟨e0, e1⟩, -, -, -, -⟩ := idx_facts t
  funext y
  unfold iblk
  rw [View.read_apply]
  show V m c main_v3 _ = _
  rw [V_v3]
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 3072 + 1 * (y 1).val = (y 1).val; rw [e1]; omega

/-- Window 4's block at every point is its whole array. -/
theorem whole_4 (c : Dev nD) (t : Fin cfg0.N) : (iblk m c 4 t : S1024x1024.Idx → EReal) = m ((c : Thread nD τ).loc main_arg5) := by
  obtain ⟨-, -, -, -, -, ⟨e0, e1⟩, -, -, -⟩ := idx_facts t
  funext y
  unfold iblk
  rw [View.read_apply]
  show V m c main_v6 _ = _
  rw [V_v6]
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- Window 5's block at every point is its whole array. -/
theorem whole_5 (c : Dev nD) (t : Fin cfg0.N) : (iblk m c 5 t : S1024x1024.Idx → EReal) = m ((c : Thread nD τ).loc main_arg9) := by
  obtain ⟨-, -, -, -, -, -, ⟨e0, e1⟩, -, -⟩ := idx_facts t
  funext y
  unfold iblk
  rw [View.read_apply]
  show V m c main_v7 _ = _
  rw [V_v7]
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

/-- The joined bias row, as the body finds it, at column `j`. -/
theorem bias_6 (c : Dev nD) (t : Fin cfg0.N) (j : Fin 3072) :
    (iblk m c 6 t : S1x3072.Idx → EReal) (ix2 0 j) = joinedB m c (ix1 j) := by
  obtain ⟨-, -, -, -, -, -, -, ⟨e0, e1⟩, -⟩ := idx_facts t
  unfold iblk
  rw [View.read_apply]
  show V m c main_v5 _ = _
  rw [V_v5]
  refine Eq.trans (congrArg _ ?_) (row_apply (joinedB m c) shapeCasts_S3072_S1x3072 0 j)
  funext a
  apply Fin.ext
  match a with
  | ⟨0, _⟩ => show win0_6.index t (0 : Fin 2) * 1 + 1 * 0 = 0; rw [e0]
  | ⟨1, _⟩ => show win0_6.index t (1 : Fin 2) * 3072 + 1 * j.val = j.val; rw [e1]; omega

/-- The candidate's bias row, as the body finds it, at column `j`. -/
theorem bias_7 (c : Dev nD) (t : Fin cfg0.N) (j : Fin 1024) :
    (iblk m c 7 t : S1x1024.Idx → EReal) (ix2 0 j) = (m ((c : Thread nD τ).loc main_arg13) : S1024.Idx → EReal) (ix1 j) := by
  obtain ⟨-, -, -, -, -, -, -, -, ⟨e0, e1⟩⟩ := idx_facts t
  unfold iblk
  rw [View.read_apply]
  show V m c main_v8 _ = _
  rw [V_v8]
  refine Eq.trans (congrArg _ ?_) (row_apply (m ((c : Thread nD τ).loc main_arg13) : S1024.Idx → EReal) shapeCasts_S1024_S1x1024 0 j)
  funext a
  apply Fin.ext
  match a with
  | ⟨0, _⟩ => show win0_7.index t (0 : Fin 2) * 1 + 1 * 0 = 0; rw [e0]
  | ⟨1, _⟩ => show win0_7.index t (1 : Fin 2) * 1024 + 1 * j.val = j.val; rw [e1]; omega

/-- Element `(p, q)` of the output block at point `t` is element `(256 t + p, q)` of the result array. -/
theorem out_emb (t : Fin cfg0.N) (p : Fin 256) (q : Fin 1024) :
    ((cfg0.win 8).blk t).view.emb (ix2 p q) = (ix2 ⟨256 * t.val + p.val, by have := t_lt t; omega⟩ q : S16384x1024.Idx) := by
  obtain ⟨-, -, ⟨e0, e1⟩, -⟩ := idx_facts t
  funext a
  apply Fin.ext
  match a with
  | ⟨0, _⟩ => show win0_8.index t (0 : Fin 2) * 256 + 1 * p.val = 256 * t.val + p.val; rw [e0]; omega
  | ⟨1, _⟩ => show win0_8.index t (1 : Fin 2) * 1024 + 1 * q.val = q.val; rw [e1]; omega

/-- What point `t` writes back is block `t` of `result`: rows `[256 t, 256 t + 256)` of the new state. -/
theorem flushed_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after_8]
  unfold outBlock
  rw [View.canon_unit_zero hz]
  simp only [View.ld_unit_zero (S := S256x1024) hz, View.ld_unit_zero (S := S1024x3072) hz, View.ld_unit_zero (S := S1024x1024) hz,
    View.ld_unit_zero (S := S1x3072) hz, View.ld_unit_zero (S := S1x1024) hz]
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 2 t) (iblk m c 3 t) (iblk m c 6 t) (iblk m c 4 t) (iblk m c 5 t) (iblk m c 7 t) (ix2 p q)
    = result m c (((cfg0.win 8).blk t).view.emb (ix2 p q))
  rw [out_emb t p q]
  refine (Cert.KernelIdeal.Payload.pay_apply _ _ _ _ _ _ _ _ p q).trans ?_
  show _ = Cert.Gru.cell _ _ _ _ _ _ _ _ q
  rw [whole_2 m c t, whole_3 m c t, whole_4 m c t, whole_5 m c t,
    funext (rows_X m c t p), funext (rows_S m c t p), funext (bias_6 m c t), funext (bias_7 m c t)]

/-- An index of the result array is in point `t`'s block iff each coordinate is in the block's range on its axis. -/
theorem mem_blk (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9).slice (win0_8.rect t)).set ↔ _
  rw [View.set_slice_whole, Rect.mem_set_unit]
  exact Iff.rfl

/-- Every index of the result array is in some point's block: row `r` is in the block of point `r / 256`. -/
theorem covered (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 64 := N_0
  have ht : (i 0).val / 256 < cfg0.N := by rw [hN]; omega
  obtain ⟨-, -, ⟨e0, e1⟩, -⟩ := idx_facts ⟨(i 0).val / 256, ht⟩
  refine ⟨⟨(i 0).val / 256, ht⟩, flush0_8 _, ?_⟩
  rw [mem_blk]
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, ht⟩ (1 : Fin 2) * 1024 ≤ (i 1).val ∧ (i 1).val < win0_8.index ⟨(i 0).val / 256, ht⟩ (1 : Fin 2) * 1024 + 1024
    rw [e1]; omega

/-- The result array after the run is the new state. -/
theorem final (c : Dev nD) : (dats m 0 c).arrAt 8 cfg0.N = result m c :=
  (dats m 0 c).arrAt_eq_of_cover 8 (result m c) (fun t _ => flushed_eq m c t) covered

/-- The run, read: the result array at the new state of the arguments, the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final m c), kept_of m (dats m) (A_eq m) r h c⟩) (run_main m ρ)

end Cert.KernelIdeal.HandValue

end
-- ==== Proof.RefValue.lean ====
/-
  The reference's result is the specification.

  The reference computes the cell for all rows at once, one array operation at a time. Read at the index (n, j), its
  stages are: the two products X·Uc and S·Wc (the sums over k of row n of X, resp. of S, against column j' of the joined
  weights), their sum, the joined bias added at column j', and the hyperbolic tangent: the three fused gates of row n.
  The three column ranges of that array are the update gate, the second gate and the reset gate. The candidate is the
  hyperbolic tangent of X·Uh plus (S scaled by the reset gate)·Wh plus the bias bh; the new state is
  (1 − second gate) · candidate + update gate · S. Each of these is, element by element, the term the specification
  writes for row n, so the two arrays agree at every index.
-/
import proofs.«169676_j51419348467841_1_alg».proof.Proof.Gen.ReferenceIdeal.Read
import proofs.«169676_j51419348467841_1_alg».proof.Proof.Spec

noncomputable section

namespace Cert.ReferenceIdeal.RefValue
open Cert.ReferenceIdeal Cert.ReferenceIdeal.Read Idealize.ShloMosaic Idealize.ShloMosaic.ValueIdx

/-! ### Where each stage reads its operands, at an index given by its coordinates -/

/-- X·Uc at (n, j') reads row n of X … -/
theorem lidx_v3 (n : Fin 16384) (j' : Fin 3072) (k : Fin 1024) : lidx_main_v3 (ix2 n j') k = ix2 n k :=
  funext fun a => Fin.ext (by match a with | ⟨0, _⟩ => rfl | ⟨1, _⟩ => rfl)
/-- … against column j' of the joined Uc. -/
theorem ridx_v3 (n : Fin 16384) (j' : Fin 3072) (k : Fin 1024) : ridx_main_v3 (ix2 n j') k = ix2 k j' :=
  funext fun a => Fin.ext (by match a with | ⟨0, _⟩ => rfl | ⟨1, _⟩ => rfl)
/-- S·Wc at (n, j') reads row n of S … -/
theorem lidx_v4 (n : Fin 16384) (j' : Fin 3072) (k : Fin 1024) : lidx_main_v4 (ix2 n j') k = ix2 n k :=
  funext fun a => Fin.ext (by match a with | ⟨0, _⟩ => rfl | ⟨1, _⟩ => rfl)
/-- … against column j' of the joined Wc. -/
theorem ridx_v4 (n : Fin 16384) (j' : Fin 3072) (k : Fin 1024) : ridx_main_v4 (ix2 n j') k = ix2 k j' :=
  funext fun a => Fin.ext (by match a with | ⟨0, _⟩ => rfl | ⟨1, _⟩ => rfl)
/-- The joined bias, spread over the rows, is read at row 0 of its one-row form … -/
theorem idx_v7 (n : Fin 16384) (j' : Fin 3072) : idx_main_v7 (ix2 n j') = ix2 (0 : Fin 1) j' :=
  funext fun a => Fin.ext (by match a with | ⟨0, _⟩ => rfl | ⟨1, _⟩ => rfl)
/-- … which is entry j' of the vector. -/
theorem idx_v6 (j' : Fin 3072) : idx_main_v6 (ix2 (0 : Fin 1) j') = ix1 j' :=
  funext fun a => Fin.ext (by match a with | ⟨0, _⟩ => rfl)
/-- The update gate is the column range [0, 1024) of the fused gates. -/
theorem idx_v10 (n : Fin 16384) (j : Fin 1024) : idx_main_v10 (ix2 n j) = ix2 n (Cert.Gru.colZ j) :=
  funext fun a => Fin.ext (by match a with | ⟨0, _⟩ => rfl | ⟨1, _⟩ => rfl)
/-- The second gate is the column range [1024, 2048). -/
theorem idx_v11 (n : Fin 16384) (j : Fin 1024) : idx_main_v11 (ix2 n j) = ix2 n (Cert.Gru.colG j) :=
  funext fun a => Fin.ext (by match a with | ⟨0, _⟩ => rfl | ⟨1, _⟩ => rfl)
/-- The reset gate is the column range [2048, 3072). -/
theorem idx_v12 (n : Fin 16384) (k : Fin 1024) : idx_main_v12 (ix2 n k) = ix2 n (Cert.Gru.colR k) :=
  funext fun a => Fin.ext (by match a with | ⟨0, _⟩ => rfl | ⟨1, _⟩ => rfl)
/-- X·Uh at (n, j) reads row n of X … -/
theorem lidx_v13 (n : Fin 16384) (j : Fin 1024) (k : Fin 1024) : lidx_main_v13 (ix2 n j) k = ix2 n k :=
  funext fun a => Fin.ext (by match a with | ⟨0, _⟩ => rfl | ⟨1, _⟩ => rfl)
/-- … against column j of Uh. -/
theorem ridx_v13 (n : Fin 16384) (j : Fin 1024) (k : Fin 1024) : ridx_main_v13 (ix2 n j) k = ix2 k j :=
  funext fun a => Fin.ext (by match a with | ⟨0, _⟩ => rfl | ⟨1, _⟩ => rfl)
/-- (S scaled by the reset gate)·Wh at (n, j) reads row n of the scaled state … -/
theorem lidx_v15 (n : Fin 16384) (j : Fin 1024) (k : Fin 1024) : lidx_main_v15 (ix2 n j) k = ix2 n k :=
  funext fun a => Fin.ext (by match a with | ⟨0, _⟩ => rfl | ⟨1, _⟩ => rfl)
/-- … against column j of Wh. -/
theorem ridx_v15 (n : Fin 16384) (j : Fin 1024) (k : Fin 1024) : ridx_main_v15 (ix2 n j) k = ix2 k j :=
  funext fun a => Fin.ext (by match a with | ⟨0, _⟩ => rfl | ⟨1, _⟩ => rfl)
/-- The bias bh, spread over the rows, is read at row 0 of its one-row form … -/
theorem idx_v18 (n : Fin 16384) (j : Fin 1024) : idx_main_v18 (ix2 n j) = ix2 (0 : Fin 1) j :=
  funext fun a => Fin.ext (by match a with | ⟨0, _⟩ => rfl | ⟨1, _⟩ => rfl)
/-- … which is entry j of the vector. -/
theorem idx_v17 (j : Fin 1024) : idx_main_v17 (ix2 (0 : Fin 1) j) = ix1 j :=
  funext fun a => Fin.ext (by match a with | ⟨0, _⟩ => rfl)

/-! ### The fused gates -/

/-- Stage 9 at (n, j') is the fused gate j' of row n:
    tanh ((∑ₖ X(n,k)·Uc(k,j') + ∑ₖ S(n,k)·Wc(k,j')) + bc(j')). -/
theorem gates_eq (x0 x1 : (⟨S16384x1024, .f32⟩ : BufTy).Contents (Elt Ideal)) (x2 x3 x4 x6 x7 x8 : (⟨S1024x1024, .f32⟩ : BufTy).Contents (Elt Ideal)) (x10 x11 x12 : (⟨S1024, .f32⟩ : BufTy).Contents (Elt Ideal))
    (n : Fin 16384) (j' : Fin 3072) :
    val_main_v9 (F := Ideal) x0 x1 x2 x3 x4 x6 x7 x8 x10 x11 x12 (ix2 n j')
      = Cert.Gru.gates (fun k => x0 (ix2 n k)) (fun k => x1 (ix2 n k)) (val_main_v0 (F := Ideal) x2 x3 x4)
          (val_main_v1 (F := Ideal) x6 x7 x8) (fun j => val_main_v2 (F := Ideal) x10 x11 x12 (ix1 j)) j' := by
  rw [val_main_v9_apply, val_main_v8_apply, val_main_v5_apply, val_main_v3_apply, val_main_v4_apply,
    val_main_v7_apply, val_main_v6_apply]
  simp only [lidx_v3, ridx_v3, lidx_v4, ridx_v4, idx_v7, idx_v6, Ideal.addf_def, Ideal.hostUnary_tanh_def]
  rfl

/-! ### The candidate state -/

/-- Stage 20 at (n, j) is the candidate of row n at column j:
    tanh ((∑ₖ X(n,k)·Uh(k,j) + ∑ₖ (S(n,k)·reset gate(n,k))·Wh(k,j)) + bh(j)),
    the reset gate being column 2048 + k of the fused gates of row n. -/
theorem cand_eq (x0 x1 : (⟨S16384x1024, .f32⟩ : BufTy).Contents (Elt Ideal)) (x2 x3 x4 x5 x6 x7 x8 x9 : (⟨S1024x1024, .f32⟩ : BufTy).Contents (Elt Ideal)) (x10 x11 x12 x13 : (⟨S1024, .f32⟩ : BufTy).Contents (Elt Ideal))
    (n : Fin 16384) (j : Fin 1024) :
    val_main_v20 (F := Ideal) x0 x1 x2 x3 x4 x5 x6 x7 x8 x9 x10 x11 x12 x13 (ix2 n j)
      = Cert.Gru.cand (fun k => x0 (ix2 n k)) (fun k => x1 (ix2 n k)) (val_main_v0 (F := Ideal) x2 x3 x4)
          (val_main_v1 (F := Ideal) x6 x7 x8) (fun j => val_main_v2 (F := Ideal) x10 x11 x12 (ix1 j))
          x5 x9 (fun j => x13 (ix1 j)) j := by
  rw [val_main_v20_apply, val_main_v19_apply, val_main_v16_apply, val_main_v13_apply, val_main_v15_apply,
    val_main_v18_apply, val_main_v17_apply]
  simp only [lidx_v13, ridx_v13, lidx_v15, ridx_v15, idx_v18, idx_v17, val_main_v14_apply, val_main_v12_apply,
    idx_v12, gates_eq, Ideal.addf_def, Ideal.mulf_def, Ideal.hostUnary_tanh_def]
  rfl

/-! ### The new state -/

/-- The reference's result is the specification's new state: at (n, j) it is
    (1 − second gate) · candidate + update gate · S(n, j), the gates being columns 1024 + j and j of the fused gates
    of row n. -/
theorem ref_eq (x0 x1 : (⟨S16384x1024, .f32⟩ : BufTy).Contents (Elt Ideal)) (x2 x3 x4 x5 x6 x7 x8 x9 : (⟨S1024x1024, .f32⟩ : BufTy).Contents (Elt Ideal)) (x10 x11 x12 x13 : (⟨S1024, .f32⟩ : BufTy).Contents (Elt Ideal)) :
    val_main_v25 (F := Ideal) x0 x1 x2 x3 x4 x5 x6 x7 x8 x9 x10 x11 x12 x13
      = Cert.Gru.newState x0 x1 (val_main_v0 (F := Ideal) x2 x3 x4) (val_main_v1 (F := Ideal) x6 x7 x8)
          (fun j => val_main_v2 (F := Ideal) x10 x11 x12 (ix1 j)) x5 x9 (fun j => x13 (ix1 j)) := by
  funext i
  obtain ⟨n, j, rfl⟩ : ∃ (n : Fin 16384) (j : Fin 1024), i = ix2 n j := ⟨i 0, i 1, eq_ix2 i⟩
  rw [Cert.Gru.newState_ix2, val_main_v25_apply, val_main_v23_apply, val_main_v24_apply, val_main_v22_apply,
    val_main_v21_apply, val_main_cst_apply, val_main_v11_apply, val_main_v10_apply, idx_v10, idx_v11, gates_eq,
    gates_eq, cand_eq]
  simp only [Ideal.addf_def, Ideal.subf_def, Ideal.mulf_def, Ideal.ofBits_def]
  rfl

end Cert.ReferenceIdeal.RefValue

end
-- ==== Proof.lean ====
/-
  The cell computed by one fused kernel against its array-at-a-time reference: the claims.

  Both programs compute, for every row `n` of `X` and `S`,

      gates = tanh ((x · [Uz | Ug | Ur] + s · [Wz | Wg | Wr]) + [bz, bg, br]),   (z, g, r) = the three column ranges of gates,
      cand  = tanh ((x · Uh + (s ∘ r) · Wh) + bh),        new state = (1 − g) ∘ cand + z ∘ s,

  with the same operations in the same order: the kernel on 256 rows at a time over 64 grid points, through matrix
  products into a zero accumulator and narrowed operands, the reference on all rows at once through the host's
  products. Over the extended reals a narrowing is the identity and both kinds of product are the plain sum over the
  contracted axis, so the two results are one function of the arguments (`Cert.Gru.newState`), element by element; no
  law of arithmetic is needed beyond that, and the precondition is never opened.

  The frames: the two kernel programs by the pipeline's frame run over the body's triple; the reference by its run.
  The idealization rewrote nothing, so `preserves` has nothing to state.
-/
import proofs.«169676_j51419348467841_1_alg».proof.Defs
import proofs.«169676_j51419348467841_1_alg».proof.Proof.Gen.Kernel
import proofs.«169676_j51419348467841_1_alg».proof.Proof.Gen.KernelIdeal
import proofs.«169676_j51419348467841_1_alg».proof.Proof.Gen.ReferenceIdeal
import proofs.«169676_j51419348467841_1_alg».proof.Proof.Gen.Pre_finite_inputs
import proofs.«169676_j51419348467841_1_alg».proof.Proof.Gen.ReferenceIdeal.Run
import proofs.«169676_j51419348467841_1_alg».proof.Proof.KernelFrame
import proofs.«169676_j51419348467841_1_alg».proof.Proof.KernelIdealFrame
import proofs.«169676_j51419348467841_1_alg».proof.Proof.KernelIdealValue
import proofs.«169676_j51419348467841_1_alg».proof.Proof.RefValue
import Idealize.ShloMosaic.Adequacy
import Idealize.ShloMosaic.Init

noncomputable section

namespace Cert.Proof

open Idealize.ShloMosaic Idealize.SL.Sem

/-- The word-level kernel program runs to the end and keeps its arguments. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the fourteen arguments both programs end with the new state of those arguments:
    the kernel's result array block by block, the reference's as its last stage read index by index. -/
theorem algebraic : Cert.algebraic_KernelIdeal_ReferenceIdeal := by
  intro m ρ m' ρ' _ hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v25_eq, Cert.ReferenceIdeal.RefValue.ref_eq, h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
